-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S100000x2 : Shape := ⟨2, ![100000, 2]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : IVec S16384 32) (main_v13 : IVec S_ 1) (main_v16 : IVec S100000x2 1) : IVec S_ 1 :=
  let main_c_5 : IVec S_ 1 := constantI S_ 1 1#1
  let main_v17 : IVec S_ 1 := (fun x v => Host.reduce IntOp.andi x v reducesTo_S100000x2_S_d0_1 h_S_) main_v16 main_c_5
  let main_v18 : IVec S_ 1 := andi main_v13 main_v17
  let main_c_6 : IVec S_ 32 := constantI S_ 32 4294867296#32
  let main_v19 : IVec S16384 32 := broadcastInDim S16384 ![] bcast_S_S16384 main_c_6
  let main_v20 : IVec S16384 1 := cmpi .sge main_arg4 main_v19
  let main_c_7 : IVec S_ 32 := constantI S_ 32 100000#32
  let main_v21 : IVec S16384 32 := broadcastInDim S16384 ![] bcast_S_S16384 main_c_7
  let main_v22 : IVec S16384 1 := cmpi .slt main_arg4 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  main_v25

def fn {F : FTy → Type} [FloatOps F] (main_arg0 : FVec F S16384x1024 .f32) (main_arg1 : FVec F S16384x1024 .f32) (main_arg2 : FVec F S16384x1024 .f32) (main_arg3 : FVec F S100000x2 .f32) (main_arg4 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S100000x2 .f32 := Host.absf main_arg3
  let main_cst_4 : FVec F S_ .f32 := constant S_ .f32 0x7F800000#32
  let main_v15 : FVec F S100000x2 .f32 := broadcastInDim S100000x2 ![] bcast_S_S100000x2 main_cst_4
  let main_v16 : IVec S100000x2 1 := cmpf .olt main_v14 main_v15
  fn_part1 (F := F) main_arg4 main_v13 main_v16
-- ==== Kernel.lean ====
abbrev S16384x1024 : Shape := ⟨2, ![16384, 1024]⟩
abbrev S100000x2 : Shape := ⟨2, ![100000, 2]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x2 : Shape := ⟨2, ![16384, 2]⟩
abbrev S16x8x128 : Shape := ⟨3, ![16, 8, 128]⟩
abbrev S1024x1024 : Shape := ⟨2, ![1024, 1024]⟩
abbrev S1024x2 : Shape := ⟨2, ![1024, 2]⟩
abbrev S1x8x128 : Shape := ⟨3, ![1, 8, 128]⟩
abbrev S1024 : Shape := ⟨1, ![1024]⟩
abbrev S1024x1 : Shape := ⟨2, ![1024, 1]⟩
abbrev S8x128 : Shape := ⟨2, ![8, 128]⟩

abbrev nBuf : Space → Nat
  | .hbm => 38
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S100000x2, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x2, .f32⟩
  | .hbm, ⟨24, _⟩ => ⟨S16384x2, .i1⟩
  | .hbm, ⟨25, _⟩ => ⟨S_, .f32⟩
  | .hbm, ⟨26, _⟩ => ⟨S16384x2, .f32⟩
  | .hbm, ⟨27, _⟩ => ⟨S16384x2, .f32⟩
  | .hbm, ⟨28, _⟩ => ⟨S_, .f32⟩
  | .hbm, ⟨29, _⟩ => ⟨S16384x2, .f32⟩
  | .hbm, ⟨30, _⟩ => ⟨S16384x2, .f32⟩
  | .hbm, ⟨31, _⟩ => ⟨S16x8x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2, .f32⟩
  | .local _ .vmem, ⟨7, _⟩ => ⟨S1024x2, .f32⟩
  | .local _ .vmem, ⟨8, _⟩ => ⟨S1x8x128, .f32⟩
  | .local _ .vmem, ⟨9, _⟩ => ⟨S1x8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x2_0 : S16384.BroadcastsInDim S16384x2 (![0] : Fin 1 → Fin S16384x2.rank)
  bcast_S_S16384x2 : S_.BroadcastsInDim S16384x2 (![] : Fin 0 → Fin S16384x2.rank)
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S1024x2_o0_0_S1024x1 : S1024x2.Slices ![0, 0] S1024x1
  slices_S1024x2_o0_1_S1024x1 : S1024x2.Slices ![0, 1] S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  gather_S100000x2_S16384x1_S16384x2_1_0_n_n_0_1_12_wf : GatherDims.WF S100000x2 S16384x1 S16384x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2.size a ≤ S16384x2.size a
  hwx0_3 : ∀ i : grid0.Coords, EltTy.bits .f32 = 32 ∨ (Rect.block (s := S16384x2) S1024x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

def gather_S100000x2_S16384x1_S16384x2_1_0_n_n_0_1_12 : GatherDims S100000x2 S16384x1 S16384x2 where
  offsetDims := [1]
  collapsedSliceDims := [0]
  operandBatchingDims := []
  startIndicesBatchingDims := []
  startIndexMap := [0]
  indexVectorDim := 1
  sliceSizes := ![1, 2]
  wf := gather_S100000x2_S16384x1_S16384x2_1_0_n_n_0_1_12_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S100000x2 : Shape := ⟨2, ![100000, 2]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S100000x2, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x2, .f32⟩
  | .hbm, ⟨14, _⟩ => ⟨S_, .f32⟩
  | .hbm, ⟨15, _⟩ => ⟨S16384x2, .f32⟩
  | .hbm, ⟨16, _⟩ => ⟨S16384x2, .f32⟩
  | .hbm, ⟨17, _⟩ => ⟨S16384x1, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384, .f32⟩
  | .hbm, ⟨23, _⟩ => ⟨S16384, .f32⟩
  | .hbm, ⟨24, _⟩ => ⟨S16384, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384, .f32⟩
  | .hbm, ⟨49, _⟩ => ⟨S16384, .i1⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_call0_cst : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x2 : S_.BroadcastsInDim S16384x2 (![] : Fin 0 → Fin S16384x2.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1
  reducesTo_S16384x1024_S16384_d1 : S16384x1024.ReducesTo [1] S16384
  h_S_ : 0 < S_.numel
  reducesTo_S16384_S_d0 : S16384.ReducesTo [0] S_
  gather_S100000x2_S16384x1_S16384x2_1_0_n_n_0_1_12_wf : GatherDims.WF S100000x2 S16384x1 S16384x2 [1] [0] [] [0] [] 1 ![1, 2]

variable [Facts₀]

def gather_S100000x2_S16384x1_S16384x2_1_0_n_n_0_1_12 : GatherDims S100000x2 S16384x1 S16384x2 where
  offsetDims := [1]
  collapsedSliceDims := [0]
  operandBatchingDims := []
  startIndicesBatchingDims := []
  startIndexMap := [0]
  indexVectorDim := 1
  sliceSizes := ![1, 2]
  wf := gather_S100000x2_S16384x1_S16384x2_1_0_n_n_0_1_12_wf

class Facts : Prop extends Facts₀ where

variable [Facts]
-- ==== Proof.Spec.lean ====
/-
  The mathematics both programs compute, stated once over the extended reals, with no program in sight.

  A triplet (anchor, positive, negative) of rows in ℝ^1024, together with two ground-truth distances d₀, d₁,
  has the loss
      (e^{-d₀} - e^{-√s_ap})² + (e^{-d₁} - e^{-√s_an})² + [e^{-d₀} > e^{-d₁}] · max(e^{-√s_an} - e^{-√s_ap}, 0)²
  where s_ap = Σ_k (a_k - p_k)² and s_an = Σ_k (a_k - n_k)². The result of either program is the mean of
  that loss over 16384 triplets. The reference sums the 16384 losses directly. The kernel sums them in 16
  tiles of 1024 rows, writes each tile's sum 8·128 = 1024 times, sums all 16·1024 copies and divides by
  1024: on the extended reals an n-fold sum of one value is the product with n (the infinities included), and
  dividing it by n gives the value back, so the two agree with no finiteness assumption.
-/
import Idealize.ShloMosaic.PureOps.Ideal
import Idealize.ShloMosaic.PureOps.Ideal.Laws
import Idealize.ShloMosaic.Lib.ValueIdx
import Idealize.ShloMosaic.Lib.ValueIdxRank1

noncomputable section

open scoped BigOperators

namespace Cert.Triplet

open Idealize.ShloMosaic Idealize.ShloMosaic.ValueIdx

/-! ## Constants -/

/-- The pattern of `1024.0` denotes the real 1024. -/
theorem ofBits_1024 : Ideal.ofBits .f32 0x44800000#32 = ((1024 : ℝ) : EReal) := by
  simp [Ideal.ofBits, Ideal.ieee, -EReal.coe_mul]; norm_num

/-! ## One triplet's loss -/

/-- The loss of one triplet from its two squared distances `sap`, `san` and its two scaled ground-truth
    distances `d0`, `d1`. -/
def tripletLoss (sap san d0 d1 : EReal) : EReal :=
  (Ideal.exp (-d0) - Ideal.exp (-Ideal.sqrt sap)) * (Ideal.exp (-d0) - Ideal.exp (-Ideal.sqrt sap))
    + (Ideal.exp (-d1) - Ideal.exp (-Ideal.sqrt san)) * (Ideal.exp (-d1) - Ideal.exp (-Ideal.sqrt san))
    + Scalar.select (Ideal.cmp .ogt (Ideal.exp (-d0)) (Ideal.exp (-d1)))
        (max (Ideal.exp (-Ideal.sqrt san) - Ideal.exp (-Ideal.sqrt sap)) 0
          * max (Ideal.exp (-Ideal.sqrt san) - Ideal.exp (-Ideal.sqrt sap)) 0) 0

/-- The loss of triplet `b`: its anchor, positive and negative are rows `b` of `A`, `P`, `N`, its two scaled
    ground-truth distances row `b` of `D`. -/
def rowLoss (A P N : (⟨2, ![16384, 1024]⟩ : Shape).Idx → EReal) (D : (⟨2, ![16384, 2]⟩ : Shape).Idx → EReal)
    (b : Fin 16384) : EReal :=
  tripletLoss (∑ k : Fin 1024, (A (ix2 b k) - P (ix2 b k)) * (A (ix2 b k) - P (ix2 b k)))
    (∑ k : Fin 1024, (A (ix2 b k) - N (ix2 b k)) * (A (ix2 b k) - N (ix2 b k)))
    (D (ix2 b (0 : Fin 2))) (D (ix2 b (1 : Fin 2)))

/-- The kernel's output array: entry (t, i, j) is the sum of the losses of the 1024 triplets of tile `t`. -/
def tileSums (A P N : (⟨2, ![16384, 1024]⟩ : Shape).Idx → EReal) (D : (⟨2, ![16384, 2]⟩ : Shape).Idx → EReal) :
    (⟨3, ![16, 8, 128]⟩ : Shape).Idx → EReal :=
  fun y => ∑ r : Fin 1024, rowLoss A P N D ⟨(y 0).val * 1024 + r.val, by have h : (y 0).val < 16 := (y 0).isLt; omega⟩

/-- Zero minus `x` is `-x` on the extended reals (the kernel negates by subtracting from zero). -/
theorem zero_sub' (x : EReal) : (0 : EReal) - x = -x := by
  rw [sub_eq_add_neg, zero_add]

/-! ## Sums over index sets -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A function of the first coordinate alone, summed over a rank-3 index set, is the sum over that coordinate
    taken `n1 * n2` times. -/
theorem sum_idx3_fst {M : Type*} [AddCommMonoid M] {n0 n1 n2 : Nat} (g : Fin n0 → M) :
    ∑ i : (⟨3, ![n0, n1, n2]⟩ : Shape).Idx, g (i 0) = (n1 * n2) • ∑ a : Fin n0, g a := by
  rw [sum_idx3, Finset.smul_sum]
  refine Finset.sum_congr rfl fun a _ => ?_
  show ∑ b : Fin n1, ∑ c : Fin n2, g a = _
  simp only [Finset.sum_const, Finset.card_univ, Fintype.card_fin, smul_smul]

/-- 16384 terms are 16 tiles of 1024 terms. -/
theorem sum_tiles {M : Type*} [AddCommMonoid M] (f : Fin 16384 → M) :
    ∑ b : Fin 16384, f b = ∑ t : Fin 16, ∑ r : Fin 1024, f ⟨t.val * 1024 + r.val, by omega⟩ := by
  rw [← Fintype.sum_prod_type' (f := fun (t : Fin 16) (r : Fin 1024) => f ⟨t.val * 1024 + r.val, by omega⟩)]
  refine (Equiv.sum_comp (finProdFinEquiv (m := 16) (n := 1024)) f).symm.trans ?_
  refine Finset.sum_congr rfl fun p _ => ?_
  congr 1
  apply Fin.ext
  show p.2.val + 1024 * p.1.val = p.1.val * 1024 + p.2.val
  omega

/-! ## Replication and division -/

/-- A value taken 1024 times and divided by `1024.0` is the value, on every extended real. -/
theorem nsmul_div_1024 (Y : EReal) : Ideal.div ((8 * 128) • Y) (Ideal.ofBits .f32 0x44800000#32) = Y := by
  rw [ofBits_1024, Ideal.div_coe (by norm_num)]
  induction Y using EReal.rec with
  | bot =>
    rw [EReal.nsmul_eq_mul, EReal.mul_bot_of_pos (by norm_num), EReal.bot_mul_coe_of_pos (by norm_num)]
  | top =>
    rw [EReal.nsmul_eq_mul, EReal.mul_top_of_pos (by norm_num), EReal.top_mul_coe_of_pos (by norm_num)]
  | coe r =>
    rw [← EReal.coe_nsmul, ← EReal.coe_mul]
    congr 1
    rw [nsmul_eq_mul]
    push_cast
    ring

/-- THE TAIL: the sum of 16·8·128 copies of the tile sums, from zero, divided by `1024.0`, is the sum of all
    16384 terms. -/
theorem tiles_tail (f : Fin 16384 → EReal) :
    Ideal.div (Ideal.ofBits .f32 0x00000000#32
        + ∑ i : (⟨3, ![16, 8, 128]⟩ : Shape).Idx, ∑ r : Fin 1024, f ⟨(i 0).val * 1024 + r.val, by have h : (i 0).val < 16 := (i 0).isLt; omega⟩)
      (Ideal.ofBits .f32 0x44800000#32)
      = ∑ b : Fin 16384, f b := by
  rw [Ideal.ofBits_zero_f32, zero_add,
    sum_idx3_fst (n0 := 16) (n1 := 8) (n2 := 128) (fun t : Fin 16 => ∑ r : Fin 1024, f ⟨t.val * 1024 + r.val, by omega⟩),
    nsmul_div_1024, sum_tiles]

/-- The tail over the kernel's output array: its total, from zero, divided by `1024.0`, is the sum of all losses. -/
theorem tail_eq (A P N : (⟨2, ![16384, 1024]⟩ : Shape).Idx → EReal) (D : (⟨2, ![16384, 2]⟩ : Shape).Idx → EReal) :
    Ideal.div (Ideal.ofBits .f32 0x00000000#32 + ∑ i : (⟨3, ![16, 8, 128]⟩ : Shape).Idx, tileSums A P N D i)
        (Ideal.ofBits .f32 0x44800000#32)
      = ∑ b : Fin 16384, rowLoss A P N D b :=
  tiles_tail (rowLoss A P N D)

end Cert.Triplet

end
-- ==== Proof.TileValue.lean ====
/-
  What the kernel body leaves in its output tile, index by index. The body loads a [1024, 1024] tile of
  each embedding array and a [1024, 2] tile of scaled ground-truth distances; for each of the 1024 rows it forms
  the two squared distances (sums over the 1024 columns), the triplet's loss from them and the row's two
  distances, and sums the 1024 losses; every entry of the [1, 8, 128] output tile is that one sum.
-/
import proofs.«400273_j17935783428750_3_alg».proof.Proof.Gen.KernelIdeal.Skeleton
import proofs.«400273_j17935783428750_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.TileValue

open Cert.KernelIdeal Cert.KernelIdeal.Gen Idealize.ShloMosaic Idealize.ShloMosaic.ValueIdx Cert.Triplet

/-- Row `r` of a tile: the triplet's loss from the row's two squared distances and its two distances. -/
def tileRowLoss (x0 x1 x2 : S1024x1024.Idx → EReal) (x3 : S1024x2.Idx → EReal) (r : Fin 1024) : EReal :=
  tripletLoss (∑ k : Fin 1024, (x0 (ix2 r k) - x1 (ix2 r k)) * (x0 (ix2 r k) - x1 (ix2 r k)))
    (∑ k : Fin 1024, (x0 (ix2 r k) - x2 (ix2 r k)) * (x0 (ix2 r k) - x2 (ix2 r k)))
    (x3 (ix2 r (0 : Fin 2))) (x3 (ix2 r (1 : Fin 2)))

/-- A sum over the columns, kept as a [1024, 1] column: at row `r` it is the sum of the row. -/
theorem rowSum_apply (v : FVec Ideal S1024x1024 .f32) (hφ : FKind.Formats .f32)
    (hacc : (0x00000000#32 : BitVec 32) = 0x00000000#32) (r : Fin 1024) :
    shapeCast S1024x1 (multiReduction .add [1] S1024 v 0x00000000#32 reduces_S1024x1024_S1024 hφ hacc)
        shapeCasts_S1024_S1024x1 (ix2 r (0 : Fin 1))
      = ∑ k : Fin 1024, v (ix2 r k) := by
  refine (shapeCast_apply _ _ (ix2 r (0 : Fin 1)) (ix1 r) ?_).trans ?_
  · rw [Shape.rowMajor_val_one, Shape.rowMajor_val_two]
    show r.val = r.val * 1 + 0
    omega
  · refine (Ideal.multiReduction_add_single v 0x00000000#32 reduces_S1024x1024_S1024 hφ hacc (ix1 r)).trans ?_
    refine Finset.sum_congr rfl fun k _ => ?_
    exact congrArg v (funext fun a => Fin.ext (by match a with | ⟨0, _⟩ => rfl | ⟨1, _⟩ => rfl))

/-- Column `0` of the [1024, 2] tile, as a [1024, 1] column, at row `r`. -/
theorem col0_apply (x : FVec Ideal S1024x2 .f32) (r : Fin 1024) :
    extractStridedSlice S1024x1 ![0, 0] (shapeCast S1024x2 x shapeCasts_S1024x2_S1024x2) slices_S1024x2_o0_0_S1024x1
        (ix2 r (0 : Fin 1)) = x (ix2 r (0 : Fin 2)) := by
  rw [shapeCast_self]
  exact extractStridedSlice_apply _ x _ _ (ix2 r (0 : Fin 2)) (fun a => by match a with | ⟨0, _⟩ => exact (Nat.zero_add _).symm | ⟨1, _⟩ => rfl)

/-- Column `1` of the [1024, 2] tile, as a [1024, 1] column, at row `r`. -/
theorem col1_apply (x : FVec Ideal S1024x2 .f32) (r : Fin 1024) :
    extractStridedSlice S1024x1 ![0, 1] (shapeCast S1024x2 x shapeCasts_S1024x2_S1024x2) slices_S1024x2_o0_1_S1024x1
        (ix2 r (0 : Fin 1)) = x (ix2 r (1 : Fin 2)) := by
  rw [shapeCast_self]
  exact extractStridedSlice_apply _ x _ _ (ix2 r (1 : Fin 2)) (fun a => by match a with | ⟨0, _⟩ => exact (Nat.zero_add _).symm | ⟨1, _⟩ => rfl)

/-- The body's tail: the column of row losses summed to one number, which every entry of the output tile holds. -/
theorem tileSum_apply (v : FVec Ideal S1024x1 .f32) (y : S1x8x128.Idx) :
    k0_pay1 v y = ∑ r : Fin 1024, v (ix2 r (0 : Fin 1)) := by
  obtain ⟨u, i, j, rfl⟩ : ∃ (u : Fin 1) (i : Fin 8) (j : Fin 128), y = ix3 u i j := ⟨y 0, y 1, y 2, eq_ix3 y⟩
  unfold k0_pay1
  refine (shapeCast_ab_1ab_apply _ _ u i j).trans ?_
  refine (broadcastTo_apply _ _ (ix2 i j) (ix2 (0 : Fin 1) (0 : Fin 1)) (fun a => by match a with | ⟨0, _⟩ => rfl | ⟨1, _⟩ => rfl)).trans ?_
  rw [shapeCast_self]
  refine (shapeCast_a_1a_apply _ _ (0 : Fin 1) (0 : Fin 1)).trans ?_
  refine (Ideal.multiReduction_add_total v 0x00000000#32 reduces_S1024x1_S1 (fun b => by match b with | ⟨0, _⟩ => rfl) (.inl rfl) rfl
    (ix1 (0 : Fin 1))).trans ?_
  rw [sum_idx2]
  refine Finset.sum_congr rfl fun r _ => ?_
  exact Fin.sum_univ_one _

/-- THE TILE: every entry of the output tile is the sum over the tile's 1024 rows of the row's loss. -/
theorem tile_apply (x0 x1 x2 : Vec Ideal S1024x1024 .f32) (x3 : Vec Ideal S1024x2 .f32) (y : S1x8x128.Idx) :
    k0_pay1 (k0_pay2 x0 x1 x2 x3) y = ∑ r : Fin 1024, tileRowLoss x0 x1 x2 x3 r := by
  rw [tileSum_apply]
  refine Finset.sum_congr rfl fun r _ => ?_
  unfold k0_pay2 tileRowLoss tripletLoss
  simp only [addf, subf, mulf, maximumf, select, cmpf, Idealize.ShloMosaic.exp, Idealize.ShloMosaic.sqrt, broadcast,
    col0_apply, col1_apply,
    Ideal.addf_def, Ideal.subf_def, Ideal.mulf_def, Ideal.maximumf_def, Ideal.exp_def, Ideal.sqrt_def, Ideal.cmpf_def,
    Ideal.ofBits_def, Ideal.ofBits_zero_f32, Cert.Triplet.zero_sub']
  rw [rowSum_apply (mulf (subf x0 x1) (subf x0 x1)) _ _ r, rowSum_apply (mulf (subf x0 x2) (subf x0 x2)) _ _ r]
  rfl

/-- A tile's row is a triplet: when the four tiles are rows `1024 t` … `1024 t + 1023` of four arrays, row `r` of
    the tile has the loss of triplet `1024 t + r`. -/
theorem tile_eq_rows (x0 x1 x2 : Vec Ideal S1024x1024 .f32) (x3 : Vec Ideal S1024x2 .f32)
    (A P N : S16384x1024.Idx → EReal) (D : S16384x2.Idx → EReal) (t : Fin 16)
    (h0 : ∀ r k : Fin 1024, x0 (ix2 r k) = A (ix2 (⟨t.val * 1024 + r.val, by omega⟩ : Fin 16384) k))
    (h1 : ∀ r k : Fin 1024, x1 (ix2 r k) = P (ix2 (⟨t.val * 1024 + r.val, by omega⟩ : Fin 16384) k))
    (h2 : ∀ r k : Fin 1024, x2 (ix2 r k) = N (ix2 (⟨t.val * 1024 + r.val, by omega⟩ : Fin 16384) k))
    (h3 : ∀ (r : Fin 1024) (q : Fin 2), x3 (ix2 r q) = D (ix2 (⟨t.val * 1024 + r.val, by omega⟩ : Fin 16384) q))
    (r : Fin 1024) :
    tileRowLoss x0 x1 x2 x3 r = rowLoss A P N D ⟨t.val * 1024 + r.val, by omega⟩ := by
  unfold tileRowLoss rowLoss
  simp only [h0, h1, h2, h3]

end Cert.KernelIdeal.TileValue

end
-- ==== Proof.FinalArray.lean ====
/-
  From tiles to the whole output array. Grid point `t` (of 16) reads rows `1024 t` … `1024 t + 1023` of each
  operand and writes the [1, 8, 128] tile `t` of the [16, 8, 128] output; the 16 tiles cover the output, so after
  the run its entry (t, i, j) is the sum of the losses of the triplets of tile `t`.
-/
import proofs.«400273_j17935783428750_3_alg».proof.Proof.Gen.KernelIdeal.Frame
import proofs.«400273_j17935783428750_3_alg».proof.Proof.TileValue
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.ValueIdx Cert.Triplet Cert.KernelIdeal.TileValue
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps, decided over the grid: at point `t` every window is at block `t` of its first axis and block 0
    of the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- WHAT POINT `t` WRITES BACK is tile `t` of the array of tile sums, over the operands as the region finds them. -/
theorem flushed4_eq (c : Dev nD) (t : Fin cfg0.N) :
    (dats m 0 c).flushed 4 t = ((cfg0.win 4).blk t).view.read (Elt Ideal)
      (tileSums (V m c main_arg0) (V m c main_arg1) (V m c main_arg2) (V m c main_v2)) := by
  show (cfg0.win 4).cut (grid0.coords t) ((dats m 0 c).after 4 t) = _
  rw [after0_4]
  unfold out0_4
  rw [View.canon_unit_zero hz3]
  simp only [View.ld_unit_zero (S := S1024x1024) hz2, View.ld_unit_zero (S := S1024x2) hz2]
  obtain ⟨e00, e01, e10, e11, e20, e21, e30, e31, e40, e41, e42⟩ := idx_facts t
  have ht : t.val < 16 := t.isLt
  funext y
  show k0_pay1 (k0_pay2 (iblk m c 0 t) (iblk m c 1 t) (iblk m c 2 t) (iblk m c 3 t)) y
    = tileSums (V m c main_arg0) (V m c main_arg1) (V m c main_arg2) (V m c main_v2) (((cfg0.win 4).blk t).view.emb y)
  refine (tile_apply (iblk m c 0 t) (iblk m c 1 t) (iblk m c 2 t) (iblk m c 3 t) y).trans ?_
  unfold tileSums
  refine Finset.sum_congr rfl fun r _ => ?_
  refine (tile_eq_rows (iblk m c 0 t) (iblk m c 1 t) (iblk m c 2 t) (iblk m c 3 t)
    (V m c main_arg0) (V m c main_arg1) (V m c main_arg2) (V m c main_v2) ⟨t.val, ht⟩ ?_ ?_ ?_ ?_ r).trans ?_
  · intro r k
    show V m c main_arg0 (((cfg0.win 0).blk t).view.emb (ix2 r k)) = V m c main_arg0 _
    refine congrArg _ (funext fun a => Fin.ext ?_)
    match a with
    | ⟨0, _⟩ => show win0_0.index t (0 : Fin 2) * 1024 + 1 * r.val = t.val * 1024 + r.val; omega
    | ⟨1, _⟩ => show win0_0.index t (1 : Fin 2) * 1024 + 1 * k.val = k.val; omega
  · intro r k
    show V m c main_arg1 (((cfg0.win 1).blk t).view.emb (ix2 r k)) = V m c main_arg1 _
    refine congrArg _ (funext fun a => Fin.ext ?_)
    match a with
    | ⟨0, _⟩ => show win0_1.index t (0 : Fin 2) * 1024 + 1 * r.val = t.val * 1024 + r.val; omega
    | ⟨1, _⟩ => show win0_1.index t (1 : Fin 2) * 1024 + 1 * k.val = k.val; omega
  · intro r k
    show V m c main_arg2 (((cfg0.win 2).blk t).view.emb (ix2 r k)) = V m c main_arg2 _
    refine congrArg _ (funext fun a => Fin.ext ?_)
    match a with
    | ⟨0, _⟩ => show win0_2.index t (0 : Fin 2) * 1024 + 1 * r.val = t.val * 1024 + r.val; omega
    | ⟨1, _⟩ => show win0_2.index t (1 : Fin 2) * 1024 + 1 * k.val = k.val; omega
  · intro r q
    show V m c main_v2 (((cfg0.win 3).blk t).view.emb (ix2 r q)) = V m c main_v2 _
    refine congrArg _ (funext fun a => Fin.ext ?_)
    match a with
    | ⟨0, _⟩ => show win0_3.index t (0 : Fin 2) * 1024 + 1 * r.val = t.val * 1024 + r.val; omega
    | ⟨1, _⟩ => show win0_3.index t (1 : Fin 2) * 2 + 1 * q.val = q.val; omega
  · refine congrArg (rowLoss _ _ _ _) (Fin.ext ?_)
    show t.val * 1024 + r.val = (win0_4.index t (0 : Fin 3) * 1 + 1 * (y 0).val) * 1024 + r.val
    have hy : (y 0).val < 1 := (y 0).isLt
    omega

/-- An index of the output is in point `t`'s tile iff each coordinate is in the tile's range on its axis. -/
theorem mem_blk4 (t : Fin cfg0.N) (i : S16x8x128.Idx) :
    i ∈ ((cfg0.win 4).blk t).view.set ↔ ∀ a : Fin 3, win0_4.index t a * S1x8x128.size a ≤ (i a).val
      ∧ (i a).val < win0_4.index t a * S1x8x128.size a + S1x8x128.size a := by
  show i ∈ ((View.whole main_v3).slice (win0_4.rect t)).set ↔ _
  rw [View.set_slice_whole, Rect.mem_set_unit]
  exact Iff.rfl

/-- THE COVER: entry (t, i, j) of the output is in the tile point `t` writes back. -/
theorem cover4 (i : S16x8x128.Idx) :
    ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 128 := (i 2).isLt
  obtain ⟨t, ht⟩ : ∃ t : Fin cfg0.N, t.val = (i 0).val := ⟨⟨(i 0).val, hi0⟩, rfl⟩
  obtain ⟨-, -, -, -, -, -, -, -, e40, e41, e42⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 8 ≤ (i 1).val ∧ (i 1).val < win0_4.index t (1 : Fin 3) * 8 + 8; omega
  | ⟨2, _⟩ => show win0_4.index t (2 : Fin 3) * 128 ≤ (i 2).val ∧ (i 2).val < win0_4.index t (2 : Fin 3) * 128 + 128; omega

/-- THE OUTPUT ARRAY after the run: the array of tile sums. -/
theorem final4 (c : Dev nD) :
    (dats m 0 c).arrAt 4 cfg0.N = tileSums (V m c main_arg0) (V m c main_arg1) (V m c main_arg2) (V m c main_v2) :=
  (dats m 0 c).arrAt_eq_of_cover 4 _ (fun t _ => flushed4_eq m c t) cover4

end Cert.KernelIdeal.Final

end
-- ==== Proof.IndexRange.lean ====
/-
  The index arithmetic. A signed 32-bit index `w` with -100000 ≤ w < 100000 is a valid numpy index into
  an axis of extent 100000: after the wrap-around (add the extent where the index is negative) it lies in
  0 … 99999, so the range test both bounds of which the kernel's gather applies before it fills with its
  out-of-range value succeeds.
-/
import Idealize.ShloMosaic.PureOps
import Idealize.ShloMosaic.PureOps.Reduce

namespace Cert.Triplet

open Idealize.ShloMosaic

/-- A one-bit word made from a Boolean is 1 exactly when the Boolean is true. -/
theorem ofBool_eq_one (b : Bool) : BitVec.ofBool b = 1#1 ↔ b = true := by cases b <;> decide

/-- The signed comparisons of words are the comparisons of their two's-complement values. -/
theorem cmpi_slt_iff (a b : BitVec 32) : IntOp.cmpi .slt a b = 1#1 ↔ a.toInt < b.toInt := by
  unfold IntOp.cmpi
  rw [ofBool_eq_one]
  simp only [BitVec.slt, decide_eq_true_eq]
theorem cmpi_sle_iff (a b : BitVec 32) : IntOp.cmpi .sle a b = 1#1 ↔ a.toInt ≤ b.toInt := by
  unfold IntOp.cmpi
  rw [ofBool_eq_one]
  simp only [BitVec.sle, decide_eq_true_eq]
theorem cmpi_sge_iff (a b : BitVec 32) : IntOp.cmpi .sge a b = 1#1 ↔ b.toInt ≤ a.toInt := by
  unfold IntOp.cmpi
  rw [ofBool_eq_one]
  simp only [BitVec.sle, decide_eq_true_eq]

/-- numpy's wrap-around of an index into an axis of extent 100000. -/
def wrapIdx (w : BitVec 32) : BitVec 32 :=
  Scalar.select (IntOp.cmpi .slt w 0#32) (IntOp.addi w 100000#32) w

/-- The value of the wrapped index: the index, plus the extent where it is negative. -/
theorem wrapIdx_toInt (w : BitVec 32) (hlo : -100000 ≤ w.toInt) (hhi : w.toInt < 100000) :
    0 ≤ (wrapIdx w).toInt ∧ (wrapIdx w).toInt ≤ 99999 := by
  unfold wrapIdx Scalar.select
  have e0 : (0#32 : BitVec 32).toInt = 0 := by decide
  by_cases hneg : w.toInt < 0
  · have hc : IntOp.cmpi .slt w 0#32 = 1 := (cmpi_slt_iff w 0#32).mpr (by rw [e0]; exact hneg)
    rw [if_pos hc]
    unfold IntOp.addi
    rw [BitVec.toInt_add]
    have h1 : (100000#32 : BitVec 32).toInt = 100000 := by decide
    rw [h1, Int.bmod_def]
    split <;> omega
  · have hc : ¬ IntOp.cmpi .slt w 0#32 = 1 := fun h => hneg (by
      have := (cmpi_slt_iff w 0#32).mp h
      rwa [e0] at this)
    rw [if_neg hc]
    omega

/-- THE RANGE TEST SUCCEEDS: for an index the precondition admits, both comparisons of the wrapped index
    (at least 0, at most 99999) answer 1, and so does their conjunction. -/
theorem wrapIdx_inRange (w : BitVec 32) (hlo : IntOp.cmpi .sge w 4294867296#32 = 1#1)
    (hhi : IntOp.cmpi .slt w 100000#32 = 1#1) :
    IntOp.andi (IntOp.cmpi .sge (wrapIdx w) 0#32) (IntOp.cmpi .sle (wrapIdx w) 99999#32) = 1#1 := by
  have e1 : (4294867296#32 : BitVec 32).toInt = -100000 := by decide
  have e2 : (100000#32 : BitVec 32).toInt = 100000 := by decide
  have e3 : (99999#32 : BitVec 32).toInt = 99999 := by decide
  have e0 : (0#32 : BitVec 32).toInt = 0 := by decide
  have hlo' := (cmpi_sge_iff _ _).mp hlo
  have hhi' := (cmpi_slt_iff _ _).mp hhi
  rw [e1] at hlo'
  rw [e2] at hhi'
  obtain ⟨h0, h9⟩ := wrapIdx_toInt w hlo' hhi'
  rw [(cmpi_sge_iff _ _).mpr (by rw [e0]; exact h0), (cmpi_sle_iff _ _).mpr (by rw [e3]; exact h9)]
  decide

/-! ## A conjunction over an axis -/

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    have e : IntOp.andi 1#1 1#1 = 1#1 := by decide
    rw [List.foldl_cons, hx a, e]
    exact foldl_andi_one x hx l

/-- A reduction by `and`, from 1, of an array whose entries are all 1 is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

end Cert.Triplet
-- ==== Proof.GatheredRows.lean ====
/-
  The fourth operand of the kernel, as the region finds it. Before the kernel runs, the program wraps the indices
  (numpy's negative indices), gathers a row of the distance table for each, replaces the rows whose wrapped index
  is outside 0 … 99999 by its out-of-range fill, and halves everything. Under the precondition no wrapped index
  is outside that range, so nothing is replaced: the operand is half the gathered rows.
-/
import proofs.«400273_j17935783428750_3_alg».proof.Proof.Gen.KernelIdeal.Frame
import proofs.«400273_j17935783428750_3_alg».proof.Proof.IndexRange
import Idealize.ShloMosaic.Lib.StableHlo.Run
import Idealize.ShloMosaic.PureOps.Ideal
import Idealize.ShloMosaic.Lib.ValueIdx

noncomputable section

namespace Cert.KernelIdeal.Rows

open Cert.KernelIdeal Cert.KernelIdeal.Gen Idealize.ShloMosaic Idealize.ShloMosaic.TcCoe Idealize.SL.Sem
open Idealize.ShloMosaic.StableHlo Idealize.ShloMosaic.ValueIdx Cert.Triplet

variable (m : (ℓ : Loc nD τ sig) → Buf (Elt Ideal) ℓ)

/-- The indices after the wrap-around: the extent added where an index is negative. -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The gather's start indices: the wrapped indices as a column. -/
def startIdx (idx : IVec S16384 32) : IVec S16384x1 32 :=
  broadcastInDim S16384x1 ![0] bcast_S16384_S16384x1_0 (wrapped idx)

/-- Per row: is the wrapped index at least 0 and at most 99999? -/
def inRange (idx : IVec S16384 32) : IVec S16384 1 :=
  Host.reduce IntOp.andi
    (andi (cmpi .sge (startIdx idx) (broadcastInDim S16384x1 ![] bcast_S_S16384x1 (constantI S_ 32 0#32)))
      (cmpi .sle (startIdx idx) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- Half the gathered rows of the distance table: each triplet's two scaled ground-truth distances. -/
def scaledDist (tbl : FVec Ideal S100000x2 .f32) (idx : IVec S16384 32) : FVec Ideal S16384x2 .f32 :=
  mulf (Host.gather gather_S100000x2_S16384x1_S16384x2_1_0_n_n_0_1_12 tbl (startIdx idx))
    (broadcastInDim S16384x2 ![] bcast_S_S16384x2 (constant S_ .f32 0x3F000000#32))

/-- The same with the out-of-range fill still in: rows failing the range test replaced by the fill, then halved. -/
def filledDist (tbl : FVec Ideal S100000x2 .f32) (idx : IVec S16384 32) : FVec Ideal S16384x2 .f32 :=
  mulf (select (broadcastInDim S16384x2 ![0] bcast_S16384_S16384x2_0 (inRange idx))
      (Host.gather gather_S100000x2_S16384x1_S16384x2_1_0_n_n_0_1_12 tbl (startIdx idx))
      (broadcastInDim S16384x2 ![] bcast_S_S16384x2 (constant S_ .f32 0x7FC00000#32)))
    (broadcastInDim S16384x2 ![] bcast_S_S16384x2 (constant S_ .f32 0x3F000000#32))

set_option maxRecDepth 65536 in
set_option maxHeartbeats 2000000 in
/-- The operand as the host operations before the region compute it, with the out-of-range fill still in. -/
theorem operand_term (c : Dev nD) :
    V m c main_v2 = filledDist (m ((c : Thread nD τ).loc main_arg3)) (m ((c : Thread nD τ).loc main_arg4)) := by
  dsimp only [Gen.V, Gen.V0]
  simp only [Gen.hostOps0, Gen.hostOps0_1, List.flatten_cons, List.flatten_nil, List.append_nil, List.cons_append,
    List.nil_append]
  after_results_simp
  rfl

/-- Every wrapped index the precondition admits passes the range test. -/
theorem inRange_one (idx : IVec S16384 32)
    (hidx : ∀ i, IntOp.cmpi .sge (idx i) 4294867296#32 = 1#1 ∧ IntOp.cmpi .slt (idx i) 100000#32 = 1#1)
    (k : S16384.Idx) : inRange idx k = 1#1 := by
  unfold inRange
  refine reduce_andi_one _ _ _ _ (fun i => ?_) (fun _ => rfl) k
  show IntOp.andi (IntOp.cmpi .sge (wrapIdx (idx _)) 0#32) (IntOp.cmpi .sle (wrapIdx (idx _)) 99999#32) = 1#1
  exact wrapIdx_inRange _ (hidx _).1 (hidx _).2

/-- THE OPERAND: under the precondition's index range, half the gathered rows. -/
theorem operand_eq (c : Dev nD)
    (hidx : ∀ i, IntOp.cmpi .sge (m ((c : Thread nD τ).loc main_arg4) i) 4294867296#32 = 1#1
      ∧ IntOp.cmpi .slt (m ((c : Thread nD τ).loc main_arg4) i) 100000#32 = 1#1) :
    V m c main_v2 = scaledDist (m ((c : Thread nD τ).loc main_arg3)) (m ((c : Thread nD τ).loc main_arg4)) := by
  rw [operand_term]
  unfold scaledDist filledDist
  refine congrArg (fun g => mulf g _) ?_
  funext j
  show Scalar.select (inRange _ _) _ _ = _
  rw [inRange_one _ hidx, select_one]

end Cert.KernelIdeal.Rows

end
-- ==== Proof.PreRange.lean ====
/-
  The index range read off the precondition. The precondition is a conjunction whose last conjunct says that
  every entry of the index array is at least -100000 and below 100000; the conjunction being true, that conjunct
  is, and a conjunction over all entries being true gives the two comparisons at each entry.
-/
import proofs.«400273_j17935783428750_3_alg».proof.Pre_finite_inputs
import proofs.«400273_j17935783428750_3_alg».proof.Proof.IndexRange
import Idealize.ShloMosaic.Lib.ReduceAll
import Idealize.ShloMosaic.Lib.ValueIdx

namespace Cert.Triplet

open Idealize.ShloMosaic Idealize.ShloMosaic.ValueIdx Cert.Pre_finite_inputs

/-- The rank-0 shape has one index. -/
instance subsingleton_scalarIdx : Subsingleton Cert.Pre_finite_inputs.S_.Idx := ⟨fun _ _ => funext fun d => d.elim0⟩

/-- Where the precondition holds, every index is at least -100000 (the word `4294867296`) and below 100000,
    as signed words. -/
theorem idx_of_pre {F : FTy → Type} [FloatOps F] [Cert.Pre_finite_inputs.Facts]
    (a0 a1 a2 : FVec F S16384x1024 .f32) (a3 : FVec F S100000x2 .f32) (a4 : IVec S16384 32)
    (h : Cert.Pre_finite_inputs.fn (F := F) a0 a1 a2 a3 a4 = fun _ => 1#1) (i : S16384.Idx) :
    IntOp.cmpi .sge (a4 i) 4294867296#32 = 1#1 ∧ IntOp.cmpi .slt (a4 i) 100000#32 = 1#1 := by
  have h0 := congrFun h ix0
  dsimp only [Cert.Pre_finite_inputs.fn, Cert.Pre_finite_inputs.fn_part1] at h0
  obtain ⟨-, h24⟩ := IntOp.andi_eq_one.1 h0
  have h23 := Host.reduce_andi_all _ _ _ _ _ h24 i
  obtain ⟨hge, hlt⟩ := IntOp.andi_eq_one.1 h23
  exact ⟨hge, hlt⟩

end Cert.Triplet
-- ==== Proof.KernelResult.lean ====
/-
  The kernel program's result. After the region the program sums the [16, 8, 128] output from zero, divides by 1024
  (the 8·128 copies of each tile sum) and by 16384. With the output array the array of tile sums, the first quotient
  is the sum of all 16384 losses, so the result is their sum divided by `16384.0`.
-/
import proofs.«400273_j17935783428750_3_alg».proof.Defs
import proofs.«400273_j17935783428750_3_alg».proof.Proof.Gen.KernelIdeal.Frame
import proofs.«400273_j17935783428750_3_alg».proof.Proof.FinalArray
import proofs.«400273_j17935783428750_3_alg».proof.Proof.GatheredRows
import proofs.«400273_j17935783428750_3_alg».proof.Proof.PreRange
import Idealize.ShloMosaic.Lib.StableHlo.Run
import Idealize.ShloMosaic.PureOps.Ideal.Laws

noncomputable section

open scoped BigOperators

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Triplet
open Cert.KernelIdeal.Final Cert.KernelIdeal.Rows

variable (m : (ℓ : Loc nD τ sig) → Buf (Elt Ideal) ℓ) (ρ : Dev nD → PrngReg)

/-- The host operations after the region, as one function of the region's output array. -/
def tailOf (X : FVec Ideal S16x8x128 .f32) : FVec Ideal S_ .f32 :=
  Host.divf (Host.divf (Host.reduceAdd X (constant S_ .f32 0x00000000#32) reducesTo_S16x8x128_S_d0_1_2 h_S_)
    (constant S_ .f32 0x44800000#32)) (constant S_ .f32 0x46800000#32)

/-- What the program's result buffer holds after the lines that follow the region: the tail of the output array. -/
theorem tail_term (c : Dev nD) :
    Pipeline.afterTail₀ cfgs (dats m) 0 (V0 m) [hostOps1] c main_v6 = tailOf ((dats m 0 c).arrAt 4 cfg0.N) := by
  unfold Pipeline.afterTail₀
  show StableHlo.after hostOps1 _ (Proc.devRef .tc main_v6) = _
  after_results
  rw [show Pipeline.withArrays (cfgs 0).spec c (V0 m c) (fun w => (dats m 0 c).arrAt w (cfgs 0).N)
      (Proc.tc.devRef main_v3) = (dats m 0 c).arrAt 4 cfg0.N from
    Pipeline.withArrays_arr spec0 launch0.win.arr_inj c _ _ 4]
  rfl

/-- The tail at its one index: the total of the array from zero, divided by `1024.0`, then by `16384.0`. -/
theorem tailOf_apply (X : FVec Ideal S16x8x128 .f32) (i : S_.Idx) :
    tailOf X i = Ideal.div (Ideal.div (Ideal.ofBits .f32 0x00000000#32 + ∑ j : S16x8x128.Idx, X j)
      (Ideal.ofBits .f32 0x44800000#32)) (Ideal.ofBits .f32 0x46800000#32) := by
  have h : Host.reduceAdd X (constant S_ .f32 0x00000000#32) reducesTo_S16x8x128_S_d0_1_2 h_S_ i
      = Ideal.ofBits .f32 0x00000000#32 + ∑ j : S16x8x128.Idx, X j := by
    simp only [Host.reduceAdd, Ideal.hostReduceAdd_def]
    exact Ideal.hostReduceAdd_total reducesTo_S16x8x128_S_d0_1_2 (fun b => b.elim0) X _ i
  show Ideal.div (Ideal.div (Host.reduceAdd X (constant S_ .f32 0x00000000#32) reducesTo_S16x8x128_S_d0_1_2 h_S_ i) _) _ = _
  rw [h]
  rfl

/-- The mean loss: the sum of the 16384 triplets' losses divided by `16384.0`, as a rank-0 array. -/
def meanLoss (A P N : S16384x1024.Idx → EReal) (D : S16384x2.Idx → EReal) : S_.Idx → EReal :=
  fun _ => Ideal.div (∑ b : Fin 16384, rowLoss A P N D b) (Ideal.ofBits .f32 0x46800000#32)

/-- THE KERNEL PROGRAM'S RESULT, where every index is in range: the mean loss over the arguments and half the
    gathered rows of the distance table. -/
theorem result_eq (c : Dev nD)
    (hidx : ∀ i, IntOp.cmpi .sge (m ((c : Thread nD τ).loc main_arg4) i) 4294867296#32 = 1#1
      ∧ IntOp.cmpi .slt (m ((c : Thread nD τ).loc main_arg4) i) 100000#32 = 1#1) :
    tailOf ((dats m 0 c).arrAt 4 cfg0.N)
      = meanLoss (m ((c : Thread nD τ).loc main_arg0)) (m ((c : Thread nD τ).loc main_arg1))
          (m ((c : Thread nD τ).loc main_arg2))
          (scaledDist (m ((c : Thread nD τ).loc main_arg3)) (m ((c : Thread nD τ).loc main_arg4))) := by
  funext i
  rw [tailOf_apply, final4, V_main_arg0, V_main_arg1, V_main_arg2, operand_eq m c hidx, tail_eq]
  rfl

/-- The precondition gives the index range on every core. -/
theorem idx_of_Pre [Cert.Pre_finite_inputs.Facts] (hpre : Cert.Pre_KernelIdeal m) (c : Dev nD) :
    ∀ i, IntOp.cmpi .sge (m ((c : Thread nD τ).loc main_arg4) i) 4294867296#32 = 1#1
      ∧ IntOp.cmpi .slt (m ((c : Thread nD τ).loc main_arg4) i) 100000#32 = 1#1 :=
  fun i => Cert.Triplet.idx_of_pre _ _ _ _ _ (hpre c) i

/-- THE KERNEL PROGRAM'S RUN under the precondition: it terminates with the mean loss in its result buffer and its
    arguments unchanged. -/
theorem run [Cert.Pre_finite_inputs.Facts] (hpre : Cert.Pre_KernelIdeal m) :
    θ_run defs (onTc (τ := τ) (main (F := Ideal))) ⟨m, fun _ => 0, ρ⟩ fun r => ∀ c : Dev nD,
      r.2.mem ((c.tc : Thread nD τ).loc main_v6)
          = meanLoss (m ((c : Thread nD τ).loc main_arg0)) (m ((c : Thread nD τ).loc main_arg1))
              (m ((c : Thread nD τ).loc main_arg2))
              (scaledDist (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans
        ((tail_term m c).trans (result_eq m c (idx_of_Pre m hpre c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference's result. The reference gathers the distance rows (after the same wrap-around of the indices),
  halves them, takes per triplet the two squared distances over the 1024 columns, forms the triplet's loss, sums the
  16384 losses from zero and divides by 16384.
-/
import proofs.«400273_j17935783428750_3_alg».proof.Proof.Gen.ReferenceIdeal.Read
import proofs.«400273_j17935783428750_3_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
open Idealize.ShloMosaic.ValueIdx Cert.Triplet

/-- Entry `b` of the reference's loss array is the loss of triplet `b`, over the arguments and half the gathered
    rows of the distance table. -/
theorem loss_apply (x0 x1 x2 : (⟨S16384x1024, .f32⟩ : BufTy).Contents (Elt Ideal))
    (x3 : (⟨S100000x2, .f32⟩ : BufTy).Contents (Elt Ideal)) (x4 : (⟨S16384, .i32⟩ : BufTy).Contents (Elt Ideal))
    (b : Fin 16384) :
    val_main_v40 (F := Ideal) x0 x1 x2 x3 x4 (ix1 b) = rowLoss x0 x1 x2 (val_main_v8 (F := Ideal) x3 x4) b := by
  have e9 : idx_main_v9 (idx_main_v10 (ix1 b)) = ix2 b (0 : Fin 2) :=
    funext fun a => Fin.ext (by match a with | ⟨0, _⟩ => exact Nat.div_one _ | ⟨1, _⟩ => rfl)
  have e13 : idx_main_v13 (idx_main_v14 (ix1 b)) = ix2 b (1 : Fin 2) :=
    funext fun a => Fin.ext (by match a with | ⟨0, _⟩ => exact Nat.div_one _ | ⟨1, _⟩ => rfl)
  have e19 : ∀ k : Fin 1024, idx_main_v19 (ix1 b) k = ix2 b k := fun k =>
    funext fun a => Fin.ext (by match a with | ⟨0, _⟩ => rfl | ⟨1, _⟩ => rfl)
  have e25 : ∀ k : Fin 1024, idx_main_v25 (ix1 b) k = ix2 b k := fun k =>
    funext fun a => Fin.ext (by match a with | ⟨0, _⟩ => rfl | ⟨1, _⟩ => rfl)
  unfold rowLoss tripletLoss
  simp only [val_main_v40_apply, val_main_v39_apply, val_main_v38_apply, val_main_cst_3_apply, val_main_v37_apply,
    val_main_v36_apply, val_main_v35_apply, val_main_call0_v0_apply, val_main_call0_cst_apply, val_main_v34_apply,
    val_main_v33_apply, val_main_v32_apply, val_main_v31_apply, val_main_v30_apply, val_main_v29_apply,
    val_main_v28_apply, val_main_v27_apply, val_main_v26_apply, val_main_v25_apply, val_main_cst_2_apply,
    val_main_v24_apply, val_main_v23_apply, val_main_v22_apply, val_main_v21_apply, val_main_v20_apply,
    val_main_v19_apply, val_main_cst_1_apply, val_main_v18_apply, val_main_v17_apply, val_main_v16_apply,
    val_main_v15_apply, val_main_v14_apply, val_main_v13_apply, val_main_v12_apply, val_main_v11_apply,
    val_main_v10_apply, val_main_v9_apply, e9, e13, e19, e25,
    Ideal.addf_def, Ideal.subf_def, Ideal.mulf_def, Ideal.maximumf_def, Ideal.hostUnary_exp_def, Ideal.hostUnary_sqrt_def,
    Ideal.hostNegf_def, Ideal.negf_def, Ideal.cmpf_def, Ideal.ofBits_def, Ideal.ofBits_zero_f32, zero_add]

/-- THE REFERENCE'S RESULT: the sum of the 16384 losses divided by `16384.0`. -/
theorem result_apply (x0 x1 x2 : (⟨S16384x1024, .f32⟩ : BufTy).Contents (Elt Ideal))
    (x3 : (⟨S100000x2, .f32⟩ : BufTy).Contents (Elt Ideal)) (x4 : (⟨S16384, .i32⟩ : BufTy).Contents (Elt Ideal))
    (i : S_.Idx) :
    val_main_v42 (F := Ideal) x0 x1 x2 x3 x4 i
      = Ideal.div (∑ b : Fin 16384, rowLoss x0 x1 x2 (val_main_v8 (F := Ideal) x3 x4) b) (Ideal.ofBits .f32 0x46800000#32) := by
  rw [val_main_v42_apply, val_main_v41_apply, val_main_cst_4_apply, val_main_cst_5_apply, sum_idx1]
  simp only [loss_apply, Ideal.hostDivf_def, Ideal.ofBits_def, Ideal.ofBits_zero_f32, zero_add]

end Cert.ReferenceIdeal.RefValue

end
-- ==== Proof.lean ====
/-
  The triplet exp-distance loss: a kernel program against its jnp reference, equal over the extended reals.

  Both programs take three embedding arrays A, P, N : [16384, 1024], a table of ground-truth distances
  T : [100000, 2] and an index array idx : [16384], and return the mean over the 16384 triplets b of
      (e^{-d₀} - e^{-√s_ap})² + (e^{-d₁} - e^{-√s_an})² + [e^{-d₀} > e^{-d₁}] · max(e^{-√s_an} - e^{-√s_ap}, 0)²,
  with s_ap = Σ_k (A_bk - P_bk)², s_an = Σ_k (A_bk - N_bk)² and (d₀, d₁) = T[idx_b] / 2 (Proof/Spec.lean).

  The two differ in how they gather the rows T[idx_b]: both wrap a negative index around (add the extent 100000), but
  the kernel program then replaces a row whose wrapped index is outside 0 … 99999 by an out-of-range fill, where the
  reference clamps the index. The precondition therefore asks, beside finite float inputs, that every index be a valid
  numpy index into the table, -100000 ≤ idx_b < 100000: then no wrapped index is out of range, nothing is filled or
  clamped, and the gathered rows are the same (Proof/IndexRange.lean, Proof/PreRange.lean, Proof/GatheredRows.lean).
  No step uses the finiteness of the float inputs.

  The kernel sums the losses in 16 tiles of 1024 rows (Proof/TileValue.lean), writes each tile's sum to all 8·128
  entries of a tile of a [16, 8, 128] array (Proof/FinalArray.lean), and the program sums that array and divides by
  1024 and by 16384 (Proof/KernelResult.lean); the reference sums the 16384 losses and divides by 16384
  (Proof/RefValue.lean). An n-fold sum of one extended real divided by n is that extended real, the infinities
  included, and sums of extended reals regroup freely, so both are the sum of all losses divided by 16384.

  The frames of the two kernel programs are the generated ones; the reference's frame is its generated run with
  the result dropped; the kernel's idealization rewrote nothing, so `preserves` is trivial.
-/
import proofs.«400273_j17935783428750_3_alg».proof.Defs
import proofs.«400273_j17935783428750_3_alg».proof.Proof.Gen.Kernel
import proofs.«400273_j17935783428750_3_alg».proof.Proof.Gen.Kernel.Skeleton
import proofs.«400273_j17935783428750_3_alg».proof.Proof.Gen.Kernel.Launch
import proofs.«400273_j17935783428750_3_alg».proof.Proof.Gen.Kernel.Points
import proofs.«400273_j17935783428750_3_alg».proof.Proof.Gen.Kernel.Frame
import proofs.«400273_j17935783428750_3_alg».proof.Proof.Gen.KernelIdeal
import proofs.«400273_j17935783428750_3_alg».proof.Proof.Gen.KernelIdeal.Skeleton
import proofs.«400273_j17935783428750_3_alg».proof.Proof.Gen.KernelIdeal.Launch
import proofs.«400273_j17935783428750_3_alg».proof.Proof.Gen.KernelIdeal.Points
import proofs.«400273_j17935783428750_3_alg».proof.Proof.Gen.KernelIdeal.Frame
import proofs.«400273_j17935783428750_3_alg».proof.Proof.Gen.ReferenceIdeal
import proofs.«400273_j17935783428750_3_alg».proof.Proof.Gen.Pre_finite_inputs
import proofs.«400273_j17935783428750_3_alg».proof.Proof.Gen.ReferenceIdeal.Run
import proofs.«400273_j17935783428750_3_alg».proof.Proof.Gen.ReferenceIdeal.Read
import proofs.«400273_j17935783428750_3_alg».proof.Proof.KernelResult
import proofs.«400273_j17935783428750_3_alg».proof.Proof.RefValue
import Idealize.ShloMosaic.Adequacy
import Idealize.ShloMosaic.Init

noncomputable section

namespace Cert.Proof

open Idealize.ShloMosaic Idealize.ShloMosaic.TcCoe Idealize.SL.Sem

/-- The two programs halve the same gathered rows: the reference's scaled distances are the kernel program's. -/
theorem dist_eq (x3 : FVec Ideal Cert.KernelIdeal.S100000x2 .f32) (x4 : IVec Cert.KernelIdeal.S16384 32) :
    Cert.ReferenceIdeal.Read.val_main_v8 (F := Ideal) x3 x4 = Cert.KernelIdeal.Rows.scaledDist x3 x4 := rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the mean loss of the arguments in their result. -/
theorem algebraic : Cert.algebraic_KernelIdeal_ReferenceIdeal := by
  intro m ρ m' ρ' hpre hagree
  refine ⟨_, Cert.KernelIdeal.Result.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, (hagree c).1, (hagree c).2.1, (hagree c).2.2.1, (hagree c).2.2.2.1,
    (hagree c).2.2.2.2]
  funext i
  rw [Cert.ReferenceIdeal.RefValue.result_apply, dist_eq]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
